-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S2048x768 : Shape := ⟨2, ![2048, 768]⟩
abbrev S32768 : Shape := ⟨1, ![32768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x768 .f32) (main_arg1 : FVec F S2048x768 .f32) (main_arg2 : IVec S32768 32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_c_2 : IVec S_ 32 := constantI S_ 32 0#32
  let main_v9 : IVec S32768 32 := broadcastInDim S32768 ![] bcast_S_S32768 main_c_2
  let main_v10 : IVec S32768 1 := cmpi .sge main_arg2 main_v9
  let main_c_3 : IVec S_ 32 := constantI S_ 32 2048#32
  let main_v11 : IVec S32768 32 := broadcastInDim S32768 ![] bcast_S_S32768 main_c_3
  let main_v12 : IVec S32768 1 := cmpi .slt main_arg2 main_v11
  let main_v13 : IVec S32768 1 := andi main_v10 main_v12
  let main_c_4 : IVec S_ 1 := constantI S_ 1 1#1
  let main_v14 : IVec S_ 1 := (fun x v => Host.reduce IntOp.andi x v reducesTo_S32768_S_d0 h_S_) main_v13 main_c_4
  let main_v15 : IVec S_ 1 := andi main_v8 main_v14
  main_v15
-- ==== Kernel.lean ====
abbrev S32768x768 : Shape := ⟨2, ![32768, 768]⟩
abbrev S2048x768 : Shape := ⟨2, ![2048, 768]⟩
abbrev S32768 : Shape := ⟨1, ![32768]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S32768x1 : Shape := ⟨2, ![32768, 1]⟩
abbrev S32x1x2 : Shape := ⟨3, ![32, 1, 2]⟩
abbrev S1024x768 : Shape := ⟨2, ![1024, 768]⟩
abbrev S1x1x2 : Shape := ⟨3, ![1, 1, 2]⟩
abbrev S1024x1 : Shape := ⟨2, ![1024, 1]⟩
abbrev S1024 : Shape := ⟨1, ![1024]⟩
abbrev S1024x2048 : Shape := ⟨2, ![1024, 2048]⟩
abbrev S1x1024x1 : Shape := ⟨3, ![1, 1024, 1]⟩
abbrev S1 : Shape := ⟨1, ![1]⟩
abbrev S1x1x1 : Shape := ⟨3, ![1, 1, 1]⟩
abbrev S2 : Shape := ⟨1, ![2]⟩
abbrev S32x2 : Shape := ⟨2, ![32, 2]⟩
abbrev S32x1 : Shape := ⟨2, ![32, 1]⟩
abbrev S32 : Shape := ⟨1, ![32]⟩

abbrev nBuf : Space → Nat
  | .hbm => 40
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S2048x768, .f32⟩
  | .hbm, ⟨2, _⟩ => ⟨S32768, .i32⟩
  | .hbm, ⟨3, _⟩ => ⟨S_, .f32⟩
  | .hbm, ⟨4, _⟩ => ⟨S2048x768, .f32⟩
  | .hbm, ⟨5, _⟩ => ⟨S2048x768, .f32⟩
  | .hbm, ⟨6, _⟩ => ⟨S2048x768, .bf16⟩
  | .hbm, ⟨7, _⟩ => ⟨S2048x768, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S1x2048, .f32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S32768x768, .f32⟩
  | .hbm, ⟨21, _⟩ => ⟨S32x1x2, .f32⟩
  | .hbm, ⟨22, _⟩ => ⟨S32x2, .f32⟩
  | .hbm, ⟨23, _⟩ => ⟨S32x1, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S32x1, .f32⟩
  | .hbm, ⟨28, _⟩ => ⟨S32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S2048x768, .bf16⟩
  | .local _ .vmem, ⟨5, _⟩ => ⟨S1x2048, .f32⟩
  | .local _ .vmem, ⟨6, _⟩ => ⟨S1x1x2, .f32⟩
  | .local _ .vmem, ⟨7, _⟩ => ⟨S1x1x2, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2048x768 : S_.BroadcastsInDim S2048x768 (![] : Fin 0 → Fin S2048x768.rank)
  bitsLt_bf16_f32 : FTy.bits .bf16 < FTy.bits .f32
  reducesTo_S2048x768_S2048_d1 : S2048x768.ReducesTo [1] S2048
  h_S_ : 0 < S_.numel
  bcast_S2048_S2048x1_0 : S2048.BroadcastsInDim S2048x1 (![0] : Fin 1 → Fin S2048x1.rank)
  transposes_S2048x1_S1x2048_1_0 : S2048x1.Transposes [1, 0] S1x2048
  bcast_S_S32768 : S_.BroadcastsInDim S32768 (![] : Fin 0 → Fin S32768.rank)
  bcast_S32768_S32768x1_0 : S32768.BroadcastsInDim S32768x1 (![0] : Fin 1 → Fin S32768x1.rank)
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  iota_S1024x1_d0_w32 : S1024x1.Iotas .tc 32 [0]
  reduces_S1024x768_S1024 : S1024x768.Reduces [1] S1024
  shapeCasts_S1024_S1024x1 : S1024.ShapeCasts S1024x1
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  concatenates_S1_S1_S2_d0 : Shape.Concatenates [S1, S1] S2 0
  shapeCasts_S2_S1x1x2 : S2.ShapeCasts S1x1x2
  inb_S1x1x2_S1x1x2_0_0_0 : ∀ a, (![0, 0, 0] : Fin 3 → Nat) a + S1x1x2.size a ≤ S1x1x2.size a
  h_S1x1x2 : 0 < S1x1x2.numel
  shapeCasts_S32x1x2_S32x2 : S32x1x2.ShapeCasts S32x2
  slices_S32x2_S32x1_0_0 : S32x2.Slices ![0, 0] S32x1
  shapeCasts_S32x1_S32 : S32x1.ShapeCasts S32
  reducesTo_S32_S_d0 : S32.ReducesTo [0] S_
  slices_S32x2_S32x1_0_1 : S32x2.Slices ![0, 1] S32x1
  gather_S2048x768_S32768x1_S32768x768_1_0_n_n_0_1_1768_wf : GatherDims.WF S2048x768 S32768x1 S32768x768 [1] [0] [] [0] [] 1 ![1, 768]
  dot_S1024x768_S2048x768_S1024x2048_1_1_0_0_n_n_wf : DotDims.WF S1024x768 S2048x768 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S32768x768.size a
  hwx0_1 : ∀ i : grid0.Coords, EltTy.bits .f32 = 32 ∨ (Rect.block (s := S32768x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x768.size a ≤ S2048x768.size a
  hwx0_2 : ∀ i : grid0.Coords, EltTy.bits .bf16 = 32 ∨ (Rect.block (s := S2048x768) S2048x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2.size a ≤ S32x1x2.size a
  hwx0_4 : ∀ i : grid0.Coords, EltTy.bits .f32 = 32 ∨ (Rect.block (s := S32x1x2) S1x1x2.size (cc0_transform_4 i) (hinb0_4 i)).WholeWords (EltTy.packing .f32)

variable [Facts₀]

def gather_S2048x768_S32768x1_S32768x768_1_0_n_n_0_1_1768 : GatherDims S2048x768 S32768x1 S32768x768 where
  offsetDims := [1]
  collapsedSliceDims := [0]
  operandBatchingDims := []
  startIndicesBatchingDims := []
  startIndexMap := [0]
  indexVectorDim := 1
  sliceSizes := ![1, 768]
  wf := gather_S2048x768_S32768x1_S32768x768_1_0_n_n_0_1_1768_wf
def dot_S1024x768_S2048x768_S1024x2048_1_1_0_0_n_n : DotDims S1024x768 S2048x768 S1024x2048 where
  lhsContracting := [1]
  rhsContracting := [1]
  lhsNonContracting := [0]
  rhsNonContracting := [0]
  lhsBatch := []
  rhsBatch := []
  wf := dot_S1024x768_S2048x768_S1024x2048_1_1_0_0_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x768 : Shape := ⟨2, ![32768, 768]⟩
abbrev S2048x768 : Shape := ⟨2, ![2048, 768]⟩
abbrev S32768 : Shape := ⟨1, ![32768]⟩
abbrev S_ : Shape := ⟨0, ![]⟩
abbrev S32768x1 : Shape := ⟨2, ![32768, 1]⟩
abbrev S768x2048 : Shape := ⟨2, ![768, 2048]⟩
abbrev S32768x2048 : Shape := ⟨2, ![32768, 2048]⟩
abbrev S2048 : Shape := ⟨1, ![2048]⟩
abbrev S1x2048 : Shape := ⟨2, ![1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S2048x768, .f32⟩
  | .hbm, ⟨2, _⟩ => ⟨S32768, .i32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S32768x768, .f32⟩
  | .hbm, ⟨12, _⟩ => ⟨S32768x768, .f32⟩
  | .hbm, ⟨13, _⟩ => ⟨S_, .f32⟩
  | .hbm, ⟨14, _⟩ => ⟨S32768x768, .f32⟩
  | .hbm, ⟨15, _⟩ => ⟨S32768x768, .f32⟩
  | .hbm, ⟨16, _⟩ => ⟨S32768x768, .f32⟩
  | .hbm, ⟨17, _⟩ => ⟨S_, .f32⟩
  | .hbm, ⟨18, _⟩ => ⟨S32768, .f32⟩
  | .hbm, ⟨19, _⟩ => ⟨S32768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S32768x768, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x768, .f32⟩
  | .hbm, ⟨29, _⟩ => ⟨S32768x768, .f32⟩
  | .hbm, ⟨30, _⟩ => ⟨S768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S2048x768, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768, .f32⟩
  | .hbm, ⟨46, _⟩ => ⟨S32768x1, .i32⟩
  | .hbm, ⟨47, _⟩ => ⟨S2048, .i32⟩
  | .hbm, ⟨48, _⟩ => ⟨S1x2048, .i32⟩
  | .hbm, ⟨49, _⟩ => ⟨S32768x2048, .i32⟩
  | .hbm, ⟨50, _⟩ => ⟨S32768x2048, .i32⟩
  | .hbm, ⟨51, _⟩ => ⟨S32768x2048, .i1⟩
  | .hbm, ⟨52, _⟩ => ⟨S32768x1, .f32⟩
  | .hbm, ⟨53, _⟩ => ⟨S_, .f32⟩
  | .hbm, ⟨54, _⟩ => ⟨S_, .f32⟩
  | .hbm, ⟨55, _⟩ => ⟨S32768x2048, .f32⟩
  | .hbm, ⟨56, _⟩ => ⟨S32768x2048, .f32⟩
  | .hbm, ⟨57, _⟩ => ⟨S32768x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S_S32768x768 : S_.BroadcastsInDim S32768x768 (![] : Fin 0 → Fin S32768x768.rank)
  reducesTo_S32768x768_S32768_d1 : S32768x768.ReducesTo [1] S32768
  h_S_ : 0 < S_.numel
  bcast_S_S2048x768 : S_.BroadcastsInDim S2048x768 (![] : Fin 0 → Fin S2048x768.rank)
  transposes_S2048x768_S768x2048_1_0 : S2048x768.Transposes [1, 0] S768x2048
  bcast_S32768x1_S32768x2048_0_1 : S32768x1.BroadcastsInDim S32768x2048 (![0, 1] : Fin 2 → Fin S32768x2048.rank)
  reducesTo_S2048x768_S2048_d1 : S2048x768.ReducesTo [1] S2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  reducesTo_S32768x2048_S32768_d1 : S32768x2048.ReducesTo [1] S32768
  reducesTo_S32768_S_d0 : S32768.ReducesTo [0] S_
  reducesTo_S32768x2048_S_d0_1 : S32768x2048.ReducesTo [0, 1] S_
  gather_S2048x768_S32768x1_S32768x768_1_0_n_n_0_1_1768_wf : GatherDims.WF S2048x768 S32768x1 S32768x768 [1] [0] [] [0] [] 1 ![1, 768]
  dot_S32768x768_S768x2048_S32768x2048_1_0_0_1_n_n_wf : DotDims.WF S32768x768 S768x2048 S32768x2048 [1] [0] [0] [1] [] []

variable [Facts₀]

def gather_S2048x768_S32768x1_S32768x768_1_0_n_n_0_1_1768 : GatherDims S2048x768 S32768x1 S32768x768 where
  offsetDims := [1]
  collapsedSliceDims := [0]
  operandBatchingDims := []
  startIndicesBatchingDims := []
  startIndexMap := [0]
  indexVectorDim := 1
  sliceSizes := ![1, 768]
  wf := gather_S2048x768_S32768x1_S32768x768_1_0_n_n_0_1_1768_wf
def dot_S32768x768_S768x2048_S32768x2048_1_0_0_1_n_n : DotDims S32768x768 S768x2048 S32768x2048 where
  lhsContracting := [1]
  rhsContracting := [0]
  lhsNonContracting := [0]
  rhsNonContracting := [1]
  lhsBatch := []
  rhsBatch := []
  wf := dot_S32768x768_S768x2048_S32768x2048_1_0_0_1_n_n_wf

class Facts : Prop extends Facts₀ where

variable [Facts]
-- ==== Proof.PreDecode.lean ====
import proofs.«422994_j76476187673023_3_alg».proof.Pre_finite_inputs
import Idealize.ShloMosaic.Lib.ReduceAll
import Idealize.ShloMosaic.Lib.ValueIdx
import Idealize.ShloMosaic.PureOps.Ideal.Laws

/-!
# The precondition, read back

The statement's precondition is a printed boolean function of the three inputs: the conjunction of three
`all`-reductions. It being true says that every entry of the two float arrays is finite, which at the
extended reals means it is a real number, and that every label lies in `[0, 2048)` as a signed word.
-/

namespace Cert.PreDecode

open Idealize.ShloMosaic Idealize.ShloMosaic.ValueIdx

variable [Cert.Pre_finite_inputs.Facts]

/-- The rank-0 shape has exactly one index. -/
instance : Subsingleton Cert.Pre_finite_inputs.S_.Idx := ⟨fun a b => funext fun d => d.elim0⟩

/-- The f32 word `0x7F800000` (sign 0, exponent all ones, fraction 0) denotes `+∞`. -/
theorem inf_word : Ideal.ofBits .f32 0x7F800000#32 = (⊤ : EReal) := by
  simp [Ideal.ofBits, Ideal.ieee]

/-- An extended real whose absolute value `max x (-x)` is strictly below `⊤` is a real number:
    at `⊥` and at `⊤` the absolute value is `⊤`. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The predicate being true splits into its three `all`-reductions each being true, and each of those
    into the element facts: `|T i| < +∞`, `|P i| < +∞`, and `0 ≤ L i` and `L i < 2048` (signed). -/
theorem elements (T : FVec Ideal Cert.Pre_finite_inputs.S32768x768 .f32) (P : FVec Ideal Cert.Pre_finite_inputs.S2048x768 .f32)
    (L : IVec Cert.Pre_finite_inputs.S32768 32) (h : Cert.Pre_finite_inputs.fn (F := Ideal) T P L = fun _ => 1#1) :
    (∀ i, Ideal.cmp .olt (max (T i) (-(T i))) ⊤ = 1#1) ∧ (∀ i, Ideal.cmp .olt (max (P i) (-(P i))) ⊤ = 1#1)
      ∧ ∀ i, 0 ≤ (L i).toInt ∧ (L i).toInt < 2048 := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · have e := Host.reduce_andi_all _ _ _ _ ix0 h1 i
    change Ideal.cmp .olt (max (T i) (-(T i))) (Ideal.ofBits .f32 0x7F800000#32) = 1#1 at e
    rwa [inf_word] at e
  · have e := Host.reduce_andi_all _ _ _ _ ix0 h2 i
    change Ideal.cmp .olt (max (P i) (-(P i))) (Ideal.ofBits .f32 0x7F800000#32) = 1#1 at e
    rwa [inf_word] at e
  · have e := Host.reduce_andi_all _ _ _ _ ix0 h3 i
    obtain ⟨ea, eb⟩ := IntOp.andi_eq_one.1 e
    have ha := IntOp.cmpi_sge.1 ea
    have hb := IntOp.cmpi_slt.1 eb
    change (0#32).toInt ≤ (L i).toInt at ha
    change (L i).toInt < (2048#32).toInt at hb
    exact ⟨ha, hb⟩

/-- Every entry of the first float array is a real number. -/
theorem finite_arg0 (T : FVec Ideal Cert.Pre_finite_inputs.S32768x768 .f32) (P : FVec Ideal Cert.Pre_finite_inputs.S2048x768 .f32)
    (L : IVec Cert.Pre_finite_inputs.S32768 32) (h : Cert.Pre_finite_inputs.fn (F := Ideal) T P L = fun _ => 1#1)
    (i : Cert.Pre_finite_inputs.S32768x768.Idx) : ∃ r : ℝ, T i = (r : EReal) :=
  real_of_abs_lt_top _ ((elements T P L h).1 i)

/-- Every entry of the second float array is a real number. -/
theorem finite_arg1 (T : FVec Ideal Cert.Pre_finite_inputs.S32768x768 .f32) (P : FVec Ideal Cert.Pre_finite_inputs.S2048x768 .f32)
    (L : IVec Cert.Pre_finite_inputs.S32768 32) (h : Cert.Pre_finite_inputs.fn (F := Ideal) T P L = fun _ => 1#1)
    (i : Cert.Pre_finite_inputs.S2048x768.Idx) : ∃ r : ℝ, P i = (r : EReal) :=
  real_of_abs_lt_top _ ((elements T P L h).2.1 i)

/-- Every label, read as a signed word, lies in `[0, 2048)`. -/
theorem label_range (T : FVec Ideal Cert.Pre_finite_inputs.S32768x768 .f32) (P : FVec Ideal Cert.Pre_finite_inputs.S2048x768 .f32)
    (L : IVec Cert.Pre_finite_inputs.S32768 32) (h : Cert.Pre_finite_inputs.fn (F := Ideal) T P L = fun _ => 1#1)
    (i : Cert.Pre_finite_inputs.S32768.Idx) : 0 ≤ (L i).toInt ∧ (L i).toInt < 2048 :=
  (elements T P L h).2.2 i

end Cert.PreDecode
-- ==== Proof.Spec.lean ====
/-
  The value both programs compute, over the extended reals: each sample's distance to the prototype its label
  picks, the difference shifted by a small constant, summed over the samples and divided by their number.
-/
import Idealize.ShloMosaic.PureOps.Ideal
import Idealize.ShloMosaic.Lib.ValueIdx

noncomputable section

namespace Cert.Spec

open Idealize.ShloMosaic Idealize.ShloMosaic.ValueIdx

/-- The shift added to every coordinate of a difference of rows: the f32 number nearest to one millionth. -/
def eps : EReal := Ideal.ofBits .f32 0x358637BD#32

/-- The number of samples, as the f32 word both programs divide by. -/
def count : EReal := Ideal.ofBits .f32 0x47000000#32

/-- A label as array indexing reads it: a negative label counts from the end of the 2048 prototypes. -/
def wrap (l : BitVec 32) : BitVec 32 := Scalar.select (IntOp.cmpi .slt l 0#32) (IntOp.addi l 2048#32) l

/-- The prototype row sample `n`'s label picks: the wrapped label, read signed and clamped into [0, 2047]. -/
def rowOf (L : (⟨1, ![32768]⟩ : Shape).Idx → BitVec 32) (n : Fin 32768) : Fin 2048 :=
  ⟨min (wrap (L (ix1 n))).toInt.toNat 2047, by omega⟩

/-- Coordinate `d` of sample `n`'s shifted difference from its prototype. -/
def diff (T : (⟨2, ![32768, 768]⟩ : Shape).Idx → EReal) (P : (⟨2, ![2048, 768]⟩ : Shape).Idx → EReal)
    (L : (⟨1, ![32768]⟩ : Shape).Idx → BitVec 32) (n : Fin 32768) (d : Fin 768) : EReal :=
  (T (ix2 n d) - P (ix2 (rowOf L n) d)) + eps

/-- Sample `n`'s distance to its prototype: the root of the sum of the squared coordinates. -/
def posDist (T : (⟨2, ![32768, 768]⟩ : Shape).Idx → EReal) (P : (⟨2, ![2048, 768]⟩ : Shape).Idx → EReal)
    (L : (⟨1, ![32768]⟩ : Shape).Idx → BitVec 32) (n : Fin 32768) : EReal :=
  Ideal.sqrt (∑ d : Fin 768, diff T P L n d * diff T P L n d)

/-- The loss: the distances' sum over the number of samples. -/
def loss (T : (⟨2, ![32768, 768]⟩ : Shape).Idx → EReal) (P : (⟨2, ![2048, 768]⟩ : Shape).Idx → EReal)
    (L : (⟨1, ![32768]⟩ : Shape).Idx → BitVec 32) : EReal :=
  Ideal.div (∑ n : Fin 32768, posDist T P L n) count

end Cert.Spec

end
-- ==== Proof.Arith.lean ====
/-
  Extended-real arithmetic the two programs' last lines rest on: a sum with an infinite term, the
  quotient by an infinite sum, squared distances of finite rows, and a sum over rows taken tile by tile.
-/
import Idealize.ShloMosaic.PureOps.Ideal
import Idealize.ShloMosaic.PureOps.Ideal.Laws

noncomputable section

namespace Cert.Arith

open Idealize.ShloMosaic

/-- A finite sum of non-negative extended reals, one of which is `⊤`, is `⊤`: nothing in it is `⊥`. -/
theorem sum_eq_top {ι : Type*} (s : Finset ι) (f : ι → EReal) (h0 : ∀ i ∈ s, 0 ≤ f i) {i0 : ι} (hi : i0 ∈ s)
    (ht : f i0 = ⊤) : ∑ i ∈ s, f i = ⊤ := by
  classical
  rw [← Finset.add_sum_erase s f hi, ht]
  refine EReal.top_add_of_ne_bot (ne_of_gt (lt_of_lt_of_le EReal.bot_lt_zero ?_))
  exact Finset.sum_nonneg fun i hi' => h0 i (Finset.mem_of_mem_erase hi')

/-- Anything over `+∞` is zero. -/
theorem div_top (x : EReal) : Ideal.div x ⊤ = 0 := by
  simp [Ideal.div]

/-- The word `0x7F800000` is `+∞`. -/
theorem top_word : Ideal.ofBits .f32 0x7F800000#32 = ⊤ := by
  simp [Ideal.ofBits, Ideal.ieee]

/-- The word `0x44FFE000` (2047) denotes a non-negative number. -/
theorem c2047_nonneg : (0 : EReal) ≤ Ideal.ofBits .f32 0x44FFE000#32 := by
  simp [Ideal.ofBits, Ideal.ieee]
  exact mul_nonneg (by positivity) (by positivity)

/-- The word `0x358637BD` (the shift) denotes a real number. -/
theorem eps_real : ∃ r : ℝ, Ideal.ofBits .f32 0x358637BD#32 = (r : EReal) := by
  simp [Ideal.ofBits, Ideal.ieee]
  exact ⟨_, rfl⟩

/-- A non-negative multiple of a non-negative sum, plus `+∞`, is `+∞`; one over it vanishes, and what is left is
    the first sum over the count. -/
theorem tail_of_nonneg (S M c u N : EReal) (hc : 0 ≤ c) (hM : 0 ≤ M) :
    Ideal.div (S + Ideal.div u (c * M + ⊤)) N = Ideal.div S N := by
  have h : c * M + ⊤ = ⊤ :=
    EReal.add_top_of_ne_bot (ne_of_gt (lt_of_lt_of_le EReal.bot_lt_zero (mul_nonneg hc hM)))
  rw [h, div_top, add_zero]

/-- The same last lines when the divisor's sum is `+∞` outright. -/
theorem tail_of_top (S u N : EReal) : Ideal.div (S + Ideal.div u ⊤) N = Ideal.div S N := by
  rw [div_top, add_zero]

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The root of a non-negative quantity is non-negative, whatever the quantity. -/
theorem sqrt_max_zero_nonneg (x : EReal) : 0 ≤ Ideal.sqrt (max x 0) := by
  have hx : (0 : EReal) ≤ max x 0 := le_max_right _ _
  generalize max x 0 = y at hx
  induction y using EReal.rec with
  | bot => exact absurd hx (by simp)
  | top => simp
  | coe r =>
    have hr : 0 ≤ r := by exact_mod_cast hx
    rw [Ideal.sqrt_coe, if_neg (not_lt.2 hr)]
    exact_mod_cast Real.sqrt_nonneg r

/-- ONE ROW. For finite entries the squared distance with the shift taken off the prototype first, clamped at zero,
    is the squared distance with the shift added to the difference: the two spell one real number, a sum of squares. -/
theorem row_eq (t p : Fin 768 → EReal) (e : EReal) (ht : ∀ d, ∃ r : ℝ, t d = (r : EReal))
    (hp : ∀ d, ∃ r : ℝ, p d = (r : EReal)) (he : ∃ r : ℝ, e = (r : EReal)) :
    Ideal.sqrt (max (∑ d, (t d - (p d - e)) * (t d - (p d - e))) 0)
      = Ideal.sqrt (∑ d, ((t d - p d) + e) * ((t d - p d) + e)) := by
  choose tr htr using ht
  choose pr hpr using hp
  obtain ⟨er, rfl⟩ := he
  have h1 : ∀ d, (t d - (p d - (er : EReal))) * (t d - (p d - (er : EReal)))
      = (((tr d - pr d + er) * (tr d - pr d + er) : ℝ) : EReal) := by
    intro d; rw [htr, hpr]; norm_cast; ring_nf
  have h2 : ∀ d, ((t d - p d) + (er : EReal)) * ((t d - p d) + (er : EReal))
      = (((tr d - pr d + er) * (tr d - pr d + er) : ℝ) : EReal) := by
    intro d; rw [htr, hpr]; norm_cast
  simp only [h1, h2, ← coe_sum]
  rw [max_eq_left]
  exact_mod_cast Finset.sum_nonneg fun d _ => mul_self_nonneg _

/-- A sum over the 32768 samples, taken as 32 tiles of 1024. -/
theorem sum_tiles {M : Type*} [AddCommMonoid M] (f : Fin 32768 → M) :
    ∑ n, f n = ∑ i : Fin 32, ∑ r : Fin 1024, f ⟨1024 * i.val + r.val, by omega⟩ := by
  rw [← Fintype.sum_prod_type']
  refine (Fintype.sum_equiv (finProdFinEquiv.trans (finCongr (by norm_num : 32 * 1024 = 32768))) _ _ ?_).symm
  rintro ⟨i, r⟩
  refine congrArg f (Fin.ext ?_)
  simp [finProdFinEquiv]
  omega

end Cert.Arith

end
-- ==== Proof.LibGather.lean ====
/-
  Two layout reads a sparse product's reference needs: a gather of whole rows of a matrix by an index column, and
  two matrices joined along their second axis.
-/
import Idealize.ShloMosaic.PureOps
import Idealize.ShloMosaic.Lib.ValueIdx
import Idealize.ShloMosaic.Lib.Pipeline.Value

noncomputable section

namespace Idealize.ShloMosaic.GatherRead

open Idealize.ShloMosaic Idealize.ShloMosaic.ValueIdx

/-- The dimension numbers of a gather of whole rows: operand `[R, C]`, start indices `[n, 1]` (one row number per
    result row), result `[n, C]`; the row axis is collapsed and indexed, the column axis is kept whole. -/
private abbrev rowsDims (R C n : Nat)
    (wf : GatherDims.WF ⟨2, ![R, C]⟩ ⟨2, ![n, 1]⟩ ⟨2, ![n, C]⟩ [1] [0] [] [0] [] 1 ![1, C]) :
    GatherDims (⟨2, ![R, C]⟩ : Shape) ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Axis 1 is not axis 0. -/
private theorem one_not_mem_zero : (1 : Fin 2) ∉ ([0] : List (Fin 2)) := by decide

/-- The gather of whole rows read at `(i, b)`, for the dimension numbers spelled out. -/
private theorem rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (i : Fin n) (b : Fin C) :
    Host.gather (rowsDims R C n wf) x idx (ix2 i b)
      = x (ix2 ⟨min (idx (ix2 i 0)).toInt.toNat (R - 1), by omega⟩ b) := by
  unfold Host.gather
  congr 1
  funext a
  refine Fin.ext ?_
  match a with
  | ⟨0, _⟩ =>
    -- the row axis: the clamped start index; no batching coordinate, and no offset since the axis is collapsed
    show (rowsDims R C n wf).start (ix2 i b) idx 0 + (rowsDims R C n wf).batchCoord (ix2 i b) 0
      + (rowsDims R C n wf).offCoord (ix2 i b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims R C n wf).startIndexMap from List.mem_singleton.mpr rfl)]
    have hsi : (rowsDims R C n wf).siIdx (ix2 i b) ⟨List.idxOf (0 : Fin 2) (rowsDims R C n wf).startIndexMap,
        List.idxOf_lt_length_iff.2 (List.mem_singleton.mpr rfl)⟩ = ix2 i 0 := by
      funext c; refine Fin.ext ?_
      match c with
      | ⟨0, _⟩ => rfl
      | ⟨1, _⟩ => rfl
    rw [hsi]
    rfl
  | ⟨1, _⟩ =>
    -- the column axis: not indexed (start 0), not batching, and the offset is the result's column
    show (rowsDims R C n wf).start (ix2 i b) idx 1 + (rowsDims R C n wf).batchCoord (ix2 i b) 1
      + (rowsDims R C n wf).offCoord (ix2 i b) 1 = b.val
    rw [GatherDims.batchCoord_eq_zero _ _ _ List.not_mem_nil]
    have hs : (rowsDims R C n wf).start (ix2 i b) idx 1 = 0 := by
      unfold GatherDims.start
      rw [dif_neg (show ¬ (1 : Fin 2) ∈ (rowsDims R C n wf).startIndexMap from one_not_mem_zero)]
    have hk : (1 : Fin 2) ∈ (rowsDims R C n wf).sKept :=
      (GatherDims.mem_sKept _ _).mpr ⟨one_not_mem_zero, List.not_mem_nil⟩
    rw [hs]
    simp only [Nat.add_zero, Nat.zero_add]
    unfold GatherDims.offCoord
    rw [dif_pos hk]
    rfl

/-- ROWS OF A MATRIX. Entry `(i, b)` of the result is the operand at row `idx[i, 0]` — read signed and clamped
    into `[0, R − 1]` — and column `b`. -/
theorem gather_rows_apply {α : Type} {R C n w : Nat} (hR : 0 < R)
    (d : GatherDims (⟨2, ![R, C]⟩ : Shape) ⟨2, ![n, 1]⟩ ⟨2, ![n, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![R, C]⟩ : Shape).Idx → α) (idx : IVec ⟨2, ![n, 1]⟩ w) (i : Fin n) (b : Fin C) :
    Host.gather d x idx (ix2 i b) = x (ix2 ⟨min (idx (ix2 i 0)).toInt.toNat (R - 1), by omega⟩ b) := by
  obtain ⟨od, cd, ob, sb, sm, iv, ss, wf⟩ := d
  dsimp only at h1 h2 h3 h4 h5 h6 h7
  subst h1 h2 h3 h4 h5 h6 h7
  exact rows_apply hR wf x idx i b

/-- TWO MATRICES SIDE BY SIDE. Entry `(p, q)` of `[a | b]` is `a[p, q]` for `q` below `a`'s width and
    `b[p, q − width]` from there on. -/
theorem concat_cols_apply {α : Type} {A B₁ B₂ B : Nat} (hB : B₁ + B₂ = B)
    (h : Shape.Concatenates [(⟨2, ![A, B₁]⟩ : Shape), ⟨2, ![A, B₂]⟩] (⟨2, ![A, B]⟩ : Shape) 1)
    (a : (⟨2, ![A, B₁]⟩ : Shape).Idx → α) (b : (⟨2, ![A, B₂]⟩ : Shape).Idx → α) (p : Fin A) (q : Fin B) :
    concatenate (⟨2, ![A, B]⟩ : Shape) 1 [⟨⟨2, ![A, B₁]⟩, a⟩, ⟨⟨2, ![A, B₂]⟩, b⟩] h (ix2 p q)
      = if hq : q.val < B₁ then a (ix2 p ⟨q.val, hq⟩) else b (ix2 p ⟨q.val - B₁, by omega⟩) := by
  by_cases hq : q.val < B₁
  · -- the column falls in the first matrix: same coordinates there
    rw [dif_pos hq]
    refine concatenate_pair_apply_left (1 : Fin 2) a b h (ix2 p q) rfl (ix2 p ⟨q.val, hq⟩) ?_
    intro c
    match c with
    | ⟨0, _⟩ => rfl
    | ⟨1, _⟩ => rfl
  · -- the column falls in the second matrix: same row, the column the first width less
    rw [dif_neg hq]
    refine concatenate_pair_apply_right (1 : Fin 2) a b h (ix2 p q) rfl rfl (ix2 p ⟨q.val - B₁, by omega⟩) ?_ ?_
    · intro c hc
      match c, hc with
      | ⟨0, _⟩, _ => rfl
      | ⟨1, _⟩, hc => exact absurd rfl hc
    · show q.val - B₁ + B₁ = q.val
      omega

end Idealize.ShloMosaic.GatherRead

end
-- ==== Proof.RefValue.lean ====
/-
  The reference program's value over the extended reals. Read operation by operation, its result is
  (Σ_n dist_n + 1 / Σ_{n,j} W[n,j]) / N, where dist_n is sample n's distance to the prototype its label picks and
  W[n,j] is +∞ where j is sample n's label and a minimum of roots of clamped numbers elsewhere. Every W[n,j] is
  non-negative and, the labels lying in range, one of them is +∞: the second sum is +∞, its reciprocal vanishes, and the
  value is the mean of the distances.
-/
import proofs.«422994_j76476187673023_3_alg».proof.Proof.ReferenceRead
import proofs.«422994_j76476187673023_3_alg».proof.Proof.Spec
import proofs.«422994_j76476187673023_3_alg».proof.Proof.Arith
import proofs.«422994_j76476187673023_3_alg».proof.Proof.LibGather
import Idealize.ShloMosaic.Lib.ValueIdx
import Idealize.ShloMosaic.Lib.Affine
import Idealize.ShloMosaic.PureOps.Reduce
import Idealize.ShloMosaic.PureOps.Ideal.Laws

noncomputable section

namespace Cert.RefValue

open Idealize.ShloMosaic Idealize.ShloMosaic.ValueIdx Cert.ReferenceIdeal Cert.ReferenceIdeal.Gen Cert.ReferenceIdeal.ReadP

/-! ## The label column -/

/-- Sample `n`'s entry of the wrapped-label vector is its label wrapped. -/
theorem wrapped_apply (L : (⟨S32768, .i32⟩ : BufTy).Contents (Elt Ideal)) (n : Fin 32768) :
    val_main_v4 (F := Ideal) L (ix1 n) = Cert.Spec.wrap (L (ix1 n)) := by
  rw [val_main_v4_apply, val_main_v1_apply, val_main_v3_apply, val_main_v0_apply, val_main_v2_apply,
    val_main_c_apply, val_main_c_0_apply]
  rfl

/-- The index column the gather reads holds, in row `n`, sample `n`'s wrapped label. -/
theorem column_apply (L : (⟨S32768, .i32⟩ : BufTy).Contents (Elt Ideal)) (n : Fin 32768) :
    val_main_v5 (F := Ideal) L (ix2 n 0) = Cert.Spec.wrap (L (ix1 n)) := by
  have hi : idx_main_v5 (ix2 n (0 : Fin 1)) = ix1 n := by
    funext a
    match a with
    | ⟨0, _⟩ => rfl
  rw [val_main_v5_apply, hi]
  exact wrapped_apply L n

/-! ## The distances -/

/-- The gathered matrix's row `n` is the prototype row sample `n`'s label picks. -/
theorem gathered_apply (P : (⟨S2048x768, .f32⟩ : BufTy).Contents (Elt Ideal))
    (L : (⟨S32768, .i32⟩ : BufTy).Contents (Elt Ideal)) (n : Fin 32768) (d : Fin 768) :
    val_main_v6 (F := Ideal) P L (ix2 n d) = P (ix2 (Cert.Spec.rowOf L n) d) := by
  unfold val_main_v6
  refine (GatherRead.gather_rows_apply (by decide) _ rfl rfl rfl rfl rfl rfl rfl P (val_main_v5 (F := Ideal) L) n d).trans ?_
  refine congrArg P (congrArg (fun r => ix2 r d) (Fin.ext ?_))
  show min (val_main_v5 (F := Ideal) L (ix2 n 0)).toInt.toNat (2048 - 1) = min (Cert.Spec.wrap (L (ix1 n))).toInt.toNat 2047
  rw [column_apply]

/-- One squared coordinate of sample `n`'s shifted difference. -/
theorem square_apply (T : (⟨S32768x768, .f32⟩ : BufTy).Contents (Elt Ideal)) (P : (⟨S2048x768, .f32⟩ : BufTy).Contents (Elt Ideal))
    (L : (⟨S32768, .i32⟩ : BufTy).Contents (Elt Ideal)) (n : Fin 32768) (d : Fin 768) :
    val_main_v10 (F := Ideal) T P L (ix2 n d) = Cert.Spec.diff T P L n d * Cert.Spec.diff T P L n d := by
  rw [val_main_v10_apply, val_main_v9_apply, val_main_v7_apply, val_main_v8_apply, val_main_cst_apply, gathered_apply]
  rfl

/-- Entry `n` of the vector of roots is sample `n`'s distance to its prototype. -/
theorem root_apply (T : (⟨S32768x768, .f32⟩ : BufTy).Contents (Elt Ideal)) (P : (⟨S2048x768, .f32⟩ : BufTy).Contents (Elt Ideal))
    (L : (⟨S32768, .i32⟩ : BufTy).Contents (Elt Ideal)) (n : Fin 32768) :
    val_main_v12 (F := Ideal) T P L (ix1 n) = Cert.Spec.posDist T P L n := by
  rw [val_main_v12_apply, val_main_v11_apply, val_main_cst_1_apply]
  show Ideal.sqrt (Ideal.ofBits .f32 0x00000000#32 + ∑ k : Fin 768, val_main_v10 (F := Ideal) T P L (idx_main_v11 (ix1 n) k)) = _
  rw [Ideal.ofBits_zero_f32, zero_add]
  refine congrArg Ideal.sqrt (Finset.sum_congr rfl fun k _ => ?_)
  have hi : idx_main_v11 (ix1 n) k = ix2 n k := by
    funext a
    match a with
    | ⟨0, _⟩ => rfl
    | ⟨1, _⟩ => rfl
  rw [hi]
  exact square_apply T P L n k

/-- A rank-1 index set is its coordinate's range. -/
def idxEquiv1 {m : Nat} : (⟨1, ![m]⟩ : Shape).Idx ≃ Fin m where
  toFun i := i 0
  invFun a := ix1 a
  left_inv i := (eq_ix1 i).symm
  right_inv _ := rfl

/-- The first sum: the distances' sum over the samples. -/
theorem first_sum (T : (⟨S32768x768, .f32⟩ : BufTy).Contents (Elt Ideal)) (P : (⟨S2048x768, .f32⟩ : BufTy).Contents (Elt Ideal))
    (L : (⟨S32768, .i32⟩ : BufTy).Contents (Elt Ideal)) (i : S_.Idx) :
    val_main_v41 (F := Ideal) T P L i = ∑ n : Fin 32768, Cert.Spec.posDist T P L n := by
  rw [val_main_v41_apply, val_main_cst_9_apply]
  show Ideal.ofBits .f32 0x00000000#32 + ∑ j : S32768.Idx, val_main_v12 (F := Ideal) T P L j = _
  rw [Ideal.ofBits_zero_f32, zero_add]
  refine Fintype.sum_equiv (idxEquiv1 (m := 32768)) _ _ fun j => ?_
  refine (congrArg (val_main_v12 (F := Ideal) T P L) (eq_ix1 j)).trans ?_
  exact root_apply T P L (j 0)

/-! ## The masked sum -/

/-- A non-negative word is the word of its own value. -/
theorem ofNat_toInt_toNat (x : BitVec 32) (h : 0 ≤ x.toInt) : BitVec.ofNat 32 x.toInt.toNat = x := by
  apply BitVec.eq_of_toNat_eq
  have hx := x.isLt
  rw [BitVec.toInt_eq_toNat_cond] at h ⊢
  rw [BitVec.toNat_ofNat]
  split_ifs at h ⊢ <;> omega

/-- The minimum over the prototypes, taken from +∞, of roots of clamped numbers is non-negative. -/
theorem minAll_nonneg (T : (⟨S32768x768, .f32⟩ : BufTy).Contents (Elt Ideal)) (P : (⟨S2048x768, .f32⟩ : BufTy).Contents (Elt Ideal))
    (m : S32768.Idx) : 0 ≤ val_main_v32 (F := Ideal) T P m := by
  unfold val_main_v32
  rw [Host.reduce_eq_fold]
  refine (Finset.le_fold_min (0 : EReal)).2 ⟨?_, fun x _ => ?_⟩
  · rw [val_main_cst_7_apply]
    show (0 : EReal) ≤ Ideal.ofBits .f32 0x7F800000#32
    rw [Cert.Arith.top_word]
    exact le_top
  · rw [val_main_v31_apply, val_main_v30_apply, val_main_v29_apply, val_main_cst_6_apply]
    rw [Ideal.hostUnary_sqrt_def, Ideal.maximumf_def, Ideal.ofBits_def, Ideal.ofBits_zero_f32]
    exact Cert.Arith.sqrt_max_zero_nonneg _

/-- Every entry of the masked matrix is non-negative: it is +∞ or one of those minima. -/
theorem masked_nonneg (T : (⟨S32768x768, .f32⟩ : BufTy).Contents (Elt Ideal)) (P : (⟨S2048x768, .f32⟩ : BufTy).Contents (Elt Ideal))
    (L : (⟨S32768, .i32⟩ : BufTy).Contents (Elt Ideal)) (j : S32768x2048.Idx) :
    0 ≤ val_main_v40 (F := Ideal) T P L j := by
  rw [val_main_v40_apply]
  unfold Scalar.select
  split_ifs
  · rw [val_main_call0_v1_apply, val_main_call0_v0_apply, val_main_cst_8_apply]
    show (0 : EReal) ≤ Ideal.ofBits .f32 0x7F800000#32
    rw [Cert.Arith.top_word]
    exact le_top
  · rw [val_main_call0_v2_apply, val_main_v39_apply]
    exact minAll_nonneg T P _

/-- The entry of the masked matrix in row `n` at the column of sample `n`'s label, a label in range, is +∞. -/
theorem masked_top (T : (⟨S32768x768, .f32⟩ : BufTy).Contents (Elt Ideal)) (P : (⟨S2048x768, .f32⟩ : BufTy).Contents (Elt Ideal))
    (L : (⟨S32768, .i32⟩ : BufTy).Contents (Elt Ideal)) (n : Fin 32768) (h0 : 0 ≤ (L (ix1 n)).toInt)
    (h1 : (L (ix1 n)).toInt < 2048) :
    val_main_v40 (F := Ideal) T P L (ix2 n (⟨(L (ix1 n)).toInt.toNat, by omega⟩ : Fin 2048)) = ⊤ := by
  have hc : val_main_v38 (F := Ideal) L (ix2 n (⟨(L (ix1 n)).toInt.toNat, by omega⟩ : Fin 2048)) = 1#1 := by
    rw [val_main_v38_apply]
    refine IntOp.cmpi_eq.2 ?_
    rw [val_main_v36_apply, val_main_v33_apply, val_main_v37_apply, val_main_v35_apply, val_main_v34_apply]
    refine Eq.trans ?_ (ofNat_toInt_toNat (L (ix1 n)) h0).symm
    refine congrArg L ?_
    funext a
    match a with
    | ⟨0, _⟩ => rfl
  rw [val_main_v40_apply, hc, select_one, val_main_call0_v1_apply, val_main_call0_v0_apply, val_main_cst_8_apply]
  exact Cert.Arith.top_word

/-- The second sum is +∞. -/
theorem second_sum (T : (⟨S32768x768, .f32⟩ : BufTy).Contents (Elt Ideal)) (P : (⟨S2048x768, .f32⟩ : BufTy).Contents (Elt Ideal))
    (L : (⟨S32768, .i32⟩ : BufTy).Contents (Elt Ideal))
    (hL : ∀ n : Fin 32768, 0 ≤ (L (ix1 n)).toInt ∧ (L (ix1 n)).toInt < 2048) (i : S_.Idx) :
    val_main_v42 (F := Ideal) T P L i = ⊤ := by
  rw [val_main_v42_apply, val_main_cst_10_apply]
  show Ideal.ofBits .f32 0x00000000#32 + ∑ j : S32768x2048.Idx, val_main_v40 (F := Ideal) T P L j = _
  rw [Ideal.ofBits_zero_f32, zero_add]
  exact Cert.Arith.sum_eq_top Finset.univ _ (fun j _ => masked_nonneg T P L j) (Finset.mem_univ _)
    (masked_top T P L 0 (hL 0).1 (hL 0).2)

/-! ## The value -/

/-- THE REFERENCE'S VALUE. With every label in range the reference returns the mean of the samples' distances to the
    prototypes their labels pick. -/
theorem ref_value (T : (⟨S32768x768, .f32⟩ : BufTy).Contents (Elt Ideal)) (P : (⟨S2048x768, .f32⟩ : BufTy).Contents (Elt Ideal))
    (L : (⟨S32768, .i32⟩ : BufTy).Contents (Elt Ideal))
    (hL : ∀ n : Fin 32768, 0 ≤ (L (ix1 n)).toInt ∧ (L (ix1 n)).toInt < 2048) :
    Cert.ReferenceIdeal.ReadP.val_main_v45 (F := Ideal) T P L = fun _ => Cert.Spec.loss T P L := by
  funext i
  rw [val_main_v45_apply, val_main_v44_apply, val_main_v43_apply, val_main_cst_12_apply, val_main_cst_11_apply,
    first_sum, second_sum T P L hL]
  exact Cert.Arith.tail_of_top _ _ _

end Cert.RefValue

end
-- ==== Proof.KernelPayload.lean ====
/-
  The tile's stored pair read at its two entries: the sum of the per-row positive distances, and a
  sum of per-row minimum distances of which only the sign matters.
-/
import proofs.«422994_j76476187673023_3_alg».proof.Proof.Gen.KernelIdeal.Skeleton
import proofs.«422994_j76476187673023_3_alg».proof.Proof.Arith
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- A column [1024, 1] laid out as [1, 1024, 1] and summed over everything is the sum of the column's entries. -/
theorem sum_column (u : FVec Ideal S1024x1 .f32) :
    ∑ i : S1x1024x1.Idx, shapeCast S1x1024x1 u shapeCasts_S1024x1_S1x1024x1 i = ∑ r : Fin 1024, u (ix2 r 0) := by
  unfold shapeCast
  rw [Equiv.sum_comp (Shape.reshapeEquiv _) u, sum_idx2]
  refine Finset.sum_congr rfl fun r _ => ?_
  rw [Fin.sum_univ_one]

/-- The stored pair's first entry: the first column's total. -/
theorem pay1_at0 (u v : FVec Ideal S1024x1 .f32) : k0_pay1 u v (ix3 0 0 0) = ∑ r : Fin 1024, u (ix2 r 0) := by
  unfold k0_pay1
  refine (shapeCast_apply _ shapeCasts_S2_S1x1x2 (ix3 0 0 0) (ix1 (0 : Fin 2)) (by
    rw [Shape.rowMajor_val_one, Shape.rowMajor_val_three]; rfl)).trans ?_
  refine (concatenate_pair_apply_left (t := S2) (s₁ := S1) (s₂ := S1) (0 : Fin 1) _ _ concatenates_S1_S1_S2_d0
    (ix1 (0 : Fin 2)) rfl (ix1 (0 : Fin 1)) (fun b => match b with | ⟨0, _⟩ => rfl)).trans ?_
  rw [broadcast_apply]
  unfold extractAt
  refine (shapeCast_apply _ shapeCasts_S1_S1x1x1 _ (ix1 (0 : Fin 1)) (by
    rw [Shape.rowMajor_val_one, Shape.rowMajor_val_three]; rfl)).trans ?_
  exact (Ideal.multiReduction_add_total (φ := .f32) _ _ reduces_S1x1024x1_S1 (fun b => match b with | ⟨0, _⟩ => rfl) _ _ _).trans
    (sum_column u)

/-- The stored pair's second entry: the second column's total. -/
theorem pay1_at1 (u v : FVec Ideal S1024x1 .f32) : k0_pay1 u v (ix3 0 0 1) = ∑ r : Fin 1024, v (ix2 r 0) := by
  unfold k0_pay1
  refine (shapeCast_apply _ shapeCasts_S2_S1x1x2 (ix3 0 0 1) (ix1 (1 : Fin 2)) (by
    rw [Shape.rowMajor_val_one, Shape.rowMajor_val_three]; rfl)).trans ?_
  refine (concatenate_pair_apply_right (t := S2) (s₁ := S1) (s₂ := S1) (0 : Fin 1) _ _ concatenates_S1_S1_S2_d0
    (ix1 (1 : Fin 2)) rfl rfl (ix1 (0 : Fin 1)) (fun b hb => match b, hb with | ⟨0, _⟩, hb => absurd rfl hb) rfl).trans ?_
  rw [broadcast_apply]
  unfold extractAt
  refine (shapeCast_apply _ shapeCasts_S1_S1x1x1 _ (ix1 (0 : Fin 1)) (by
    rw [Shape.rowMajor_val_one, Shape.rowMajor_val_three]; rfl)).trans ?_
  exact (Ideal.multiReduction_add_total (φ := .f32) _ _ reduces_S1x1024x1_S1 (fun b => match b with | ⟨0, _⟩ => rfl) _ _ _).trans
    (sum_column v)

/-- The row guard: row `r` of tile `i` is sample `1024 i + r`, below 32768 for each of the 32 tiles, so the guard holds. -/
theorem pay2_true (i : grid0.Coords) (r : Fin 1024) : k0_pay2 i (ix2 r 0) = 1#1 := by
  unfold k0_pay2
  show IntOp.cmpi .slt (IntOp.addi (Scalar.muli (BitVec.ofNat 32 (i 0).val) 1024#32)
    (iota .tc S1024x1 32 [0] iota_S1024x1_d0_w32 (ix2 r 0))) 32768#32 = 1#1
  rw [iota_single_apply, IntOp.cmpi_slt]
  have hi : (i 0).val < 32 := (i 0).isLt
  have hr : r.val < 1024 := r.isLt
  have e : IntOp.addi (Scalar.muli (BitVec.ofNat 32 (i 0).val) 1024#32) (BitVec.ofNat 32 ((ix2 r (0 : Fin 1) : S1024x1.Idx) 0).val)
      = BitVec.ofNat 32 ((i 0).val * 1024 + r.val) := by
    show BitVec.ofNat 32 (i 0).val * 1024#32 + BitVec.ofNat 32 r.val = _
    apply BitVec.eq_of_toNat_eq
    simp only [BitVec.toNat_add, BitVec.toNat_mul, BitVec.toNat_ofNat]
    omega
  have h1 : (BitVec.ofNat 32 ((i 0).val * 1024 + r.val)).toNat = (i 0).val * 1024 + r.val := by
    rw [BitVec.toNat_ofNat]; omega
  have h2 : (32768#32 : BitVec 32).toInt = 32768 := by decide
  rw [e, BitVec.toInt_eq_toNat_of_lt (by rw [h1]; omega), h1, h2]
  exact_mod_cast (by omega : (i 0).val * 1024 + r.val < 32768)

/-- ROW `r` OF THE FIRST COLUMN: the root of the clamped squared distance between the two loaded rows. -/
theorem pay3_apply (i : grid0.Coords) (x0 x1 : Vec Ideal S1024x768 .f32) (r : Fin 1024) :
    k0_pay3 i x0 x1 (ix2 r 0)
      = Ideal.sqrt (max (∑ d : Fin 768, (x0 (ix2 r d) - x1 (ix2 r d)) * (x0 (ix2 r d) - x1 (ix2 r d))) 0) := by
  unfold k0_pay3
  rw [select_apply, pay2_true, select_one]
  show Ideal.sqrt (max (shapeCast S1024x1 _ shapeCasts_S1024_S1024x1 (ix2 r 0)) (Ideal.ofBits .f32 0x00000000#32)) = _
  rw [Ideal.ofBits_zero_f32, shapeCast_self]
  refine congrArg (fun z => Ideal.sqrt (max z 0)) ?_
  refine (shapeCast_apply _ shapeCasts_S1024_S1024x1 (ix2 r 0) (ix1 r) (by
    rw [Shape.rowMajor_val_one, Shape.rowMajor_val_two]
    show r.val = r.val * 1 + 0
    omega)).trans ?_
  refine (Ideal.multiReduction_add_single (φ := .f32) _ _ reduces_S1024x768_S1024 _ _ (ix1 r)).trans ?_
  refine Finset.sum_congr rfl fun d _ => ?_
  have e : reduces_S1024x768_S1024.lift (ix1 r) d = ix2 r d := by
    funext a
    match a with
    | ⟨0, _⟩ => rfl
    | ⟨1, _⟩ => rfl
  rw [e]
  rfl

/-- The root of a column clamped at zero is not negative, entry by entry. -/
theorem sqrt_clamped_nonneg (a : FVec Ideal S1024x1 .f32) (j : S1024x1.Idx) :
    (0 : EReal) ≤ sqrt (maximumf a (broadcast S1024x1 (FloatOps.ofBits (F := Ideal) .f32 0x00000000#32))) j := by
  show 0 ≤ Ideal.sqrt (max (a j) (Ideal.ofBits .f32 0x00000000#32))
  rw [Ideal.ofBits_zero_f32]
  exact Cert.Arith.sqrt_max_zero_nonneg _

/-- ROW `r` OF THE SECOND COLUMN is not negative: the root of a quantity clamped at zero. -/
theorem pay4_nonneg (i : grid0.Coords) (x0 : Vec Ideal S1024x768 .f32) (x2 : Vec Ideal S2048x768 .bf16)
    (x3 : Vec Ideal S1x2048 .f32) (r : Fin 1024) : 0 ≤ k0_pay4 i x0 x2 x3 (ix2 r 0) := by
  unfold k0_pay4
  rw [select_apply, pay2_true, select_one]
  exact sqrt_clamped_nonneg _ _

end Cert.KernelIdeal.Pay

end
-- ==== Proof.KernelTail.lean ====
/-
  The host lines after the kernel: the 32 stored pairs are split into their two columns, each column is summed,
  and the loss is the first total plus one over (2047 times the second total, plus infinity), over the count.
  The second total is a sum of roots, so the bracket is infinite and the loss is the first total over the count.
-/
import proofs.«422994_j76476187673023_3_alg».proof.Proof.Gen.KernelIdeal
import proofs.«422994_j76476187673023_3_alg».proof.Proof.Arith
import proofs.«422994_j76476187673023_3_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Tail

open Cert.KernelIdeal Cert.KernelIdeal.Gen Idealize.ShloMosaic Idealize.ShloMosaic.ValueIdx

/-- Column `q` of the stored pairs, as the host lines cut it out: [32, 1, 2] viewed [32, 2], column `q` sliced, viewed [32]. -/
def col0 (OUT : S32x1x2.Idx → EReal) : S32.Idx → EReal :=
  shapeCast S32 (extractStridedSlice S32x1 ![0, 0] (shapeCast S32x2 OUT shapeCasts_S32x1x2_S32x2) slices_S32x2_S32x1_0_0)
    shapeCasts_S32x1_S32
@[inherit_doc col0]
def col1 (OUT : S32x1x2.Idx → EReal) : S32.Idx → EReal :=
  shapeCast S32 (extractStridedSlice S32x1 ![0, 1] (shapeCast S32x2 OUT shapeCasts_S32x1x2_S32x2) slices_S32x2_S32x1_0_1)
    shapeCasts_S32x1_S32

/-- The host lines after the kernel, as one function of the stored pairs. -/
def tailFn (OUT : S32x1x2.Idx → EReal) : S_.Idx → EReal :=
  Host.divf (F := Ideal)
    (addf (F := Ideal) (Host.reduceAdd (F := Ideal) (col0 OUT) (constant (F := Ideal) S_ .f32 0x00000000#32) reducesTo_S32_S_d0 h_S_)
      (Host.divf (F := Ideal) (constant (F := Ideal) S_ .f32 0x3F800000#32)
        (addf (F := Ideal)
          (mulf (F := Ideal) (constant (F := Ideal) S_ .f32 0x44FFE000#32)
            (Host.reduceAdd (F := Ideal) (col1 OUT) (constant (F := Ideal) S_ .f32 0x00000000#32) reducesTo_S32_S_d0 h_S_))
          (constant (F := Ideal) S_ .f32 0x7F800000#32))))
    (constant (F := Ideal) S_ .f32 0x47000000#32)

theorem col0_apply (OUT : S32x1x2.Idx → EReal) (k : Fin 32) : col0 OUT (ix1 k) = OUT (ix3 k 0 0) := by
  unfold col0
  refine (shapeCast_apply _ shapeCasts_S32x1_S32 (ix1 k) (ix2 k (0 : Fin 1)) (by
    rw [Shape.rowMajor_val_one, Shape.rowMajor_val_two]; show k.val * 1 + 0 = k.val; omega)).trans ?_
  refine (extractStridedSlice_apply ![0, 0] _ slices_S32x2_S32x1_0_0 (ix2 k (0 : Fin 1)) (ix2 k (0 : Fin 2))
    (fun a => match a with | ⟨0, _⟩ => by show k.val = 0 + k.val; omega | ⟨1, _⟩ => rfl)).trans ?_
  exact shapeCast_apply _ shapeCasts_S32x1x2_S32x2 (ix2 k (0 : Fin 2)) (ix3 k (0 : Fin 1) (0 : Fin 2)) (by
    rw [Shape.rowMajor_val_two, Shape.rowMajor_val_three]; show (k.val * 1 + 0) * 2 + 0 = k.val * 2 + 0; omega)

theorem col1_apply (OUT : S32x1x2.Idx → EReal) (k : Fin 32) : col1 OUT (ix1 k) = OUT (ix3 k 0 1) := by
  unfold col1
  refine (shapeCast_apply _ shapeCasts_S32x1_S32 (ix1 k) (ix2 k (0 : Fin 1)) (by
    rw [Shape.rowMajor_val_one, Shape.rowMajor_val_two]; show k.val * 1 + 0 = k.val; omega)).trans ?_
  refine (extractStridedSlice_apply ![0, 1] _ slices_S32x2_S32x1_0_1 (ix2 k (0 : Fin 1)) (ix2 k (1 : Fin 2))
    (fun a => match a with | ⟨0, _⟩ => by show k.val = 0 + k.val; omega | ⟨1, _⟩ => rfl)).trans ?_
  exact shapeCast_apply _ shapeCasts_S32x1x2_S32x2 (ix2 k (1 : Fin 2)) (ix3 k (0 : Fin 1) (1 : Fin 2)) (by
    rw [Shape.rowMajor_val_two, Shape.rowMajor_val_three]; show (k.val * 1 + 0) * 2 + 1 = k.val * 2 + 1; omega)

/-- A host sum of a [32] vector is zero plus the sum of its entries. -/
theorem sum32 (x : S32.Idx → EReal) (j : S_.Idx) :
    Host.reduceAdd (F := Ideal) x (constant (F := Ideal) S_ .f32 0x00000000#32) reducesTo_S32_S_d0 h_S_ j = ∑ k : Fin 32, x (ix1 k) := by
  rw [hostReduceAdd_apply, Ideal.hostReduceAdd_total reducesTo_S32_S_d0 (fun b => b.elim0)]
  show Ideal.ofBits .f32 0x00000000#32 + _ = _
  rw [Ideal.ofBits_zero_f32, zero_add]
  exact Fintype.sum_equiv ⟨fun i => i 0, fun k => ix1 k, fun i => (eq_ix1 i).symm, fun _ => rfl⟩ _ _ fun i =>
    congrArg x (eq_ix1 i)

/-- THE LAST LINES: when the second column's total is not negative, the loss is the first column's total over the count. -/
theorem tail_value (OUT : S32x1x2.Idx → EReal) (hM : 0 ≤ ∑ k : Fin 32, OUT (ix3 k 0 1)) :
    tailFn OUT = fun _ => Ideal.div (∑ k : Fin 32, OUT (ix3 k 0 0)) Cert.Spec.count := by
  funext j
  unfold tailFn
  show Ideal.div (Host.reduceAdd (F := Ideal) (col0 OUT) _ reducesTo_S32_S_d0 h_S_ j
    + Ideal.div (Ideal.ofBits .f32 0x3F800000#32) (Ideal.ofBits .f32 0x44FFE000#32
      * Host.reduceAdd (F := Ideal) (col1 OUT) _ reducesTo_S32_S_d0 h_S_ j + Ideal.ofBits .f32 0x7F800000#32))
    (Ideal.ofBits .f32 0x47000000#32) = _
  rw [sum32, sum32, Cert.Arith.top_word]
  simp only [col0_apply, col1_apply]
  exact Cert.Arith.tail_of_nonneg _ _ _ _ _ Cert.Arith.c2047_nonneg hM

end Cert.KernelIdeal.Tail

end
-- ==== Proof.KernelValue.lean ====
/-
  What the kernel's run leaves in its result array and what the host lines make of it: tile `t` of the 32 tiles holds
  the pair (sum over its 1024 rows of the distance between a sample row and its gathered prototype row, a sum of
  roots); the result array is those pairs, tile by tile; the loss is the first entries' total over the count.
-/
import proofs.«422994_j76476187673023_3_alg».proof.Proof.KernelIdealFrame
import proofs.«422994_j76476187673023_3_alg».proof.Proof.KernelPayload
import proofs.«422994_j76476187673023_3_alg».proof.Proof.KernelTail
import proofs.«422994_j76476187673023_3_alg».proof.Proof.LibGather
import proofs.«422994_j76476187673023_3_alg».proof.Proof.Spec
import proofs.«422994_j76476187673023_3_alg».proof.Proof.Arith
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.GenP Idealize.ShloMosaic Idealize.ShloMosaic.ValueIdx
open Idealize.ShloMosaic.TcCoe Idealize.SL.Sem Idealize.ShloMosaic.StableHlo
open Idealize.ShloMosaic.Pipeline (Dat Cfg Window)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The four loaded blocks of point `t`: the sample tile, the gathered prototype tile, the whole prototype table in
    bf16 and its row of squared norms. -/
abbrev tblk (c : Dev nD) (t : Fin cfg0.N) : Vec Ideal S1024x768 .f32 := iblk m c 0 t
@[inherit_doc tblk] abbrev pblk (c : Dev nD) (t : Fin cfg0.N) : Vec Ideal S1024x768 .f32 := iblk m c 1 t
@[inherit_doc tblk] abbrev qblk (c : Dev nD) (t : Fin cfg0.N) : Vec Ideal S2048x768 .bf16 := iblk m c 2 t
@[inherit_doc tblk] abbrev sblk (c : Dev nD) (t : Fin cfg0.N) : Vec Ideal S1x2048 .f32 := iblk m c 3 t

/-- The pair point `t` stores. -/
def tile (c : Dev nD) (t : Fin cfg0.N) : Vec Ideal S1x1x2 .f32 :=
  out0_4 (grid0.coords t) (tblk m c t) (pblk m c t) (qblk m c t) (sblk m c t)

/-- It is the one store's payload over the loaded blocks. -/
theorem tile_eq (c : Dev nD) (t : Fin cfg0.N) :
    tile m c t = k0_pay1 (k0_pay3 (grid0.coords t) (tblk m c t) (pblk m c t))
      (k0_pay4 (grid0.coords t) (tblk m c t) (qblk m c t) (sblk m c t)) := by
  unfold tile out0_4
  rw [View.canon_unit_zero hz3]
  simp only [View.ld_unit_zero (S := S1024x768) hz2, View.ld_unit_zero (S := S2048x768) hz2,
    View.ld_unit_zero (S := S1x2048) hz2]

/-- The printed index maps over the grid: tile `t` reads row block `t` of the two row-tiled arrays and writes pair `t`. -/
theorem idx_facts : ∀ t : Fin cfg0.N, win0_4.index t (0 : Fin 3) = t.val ∧ win0_4.index t (1 : Fin 3) = 0
    ∧ win0_4.index t (2 : Fin 3) = 0 ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The result array the pairs make up: entry (i, ·, q) is entry q of tile i's pair. -/
def G4 (c : Dev nD) : S32x1x2.Idx → EReal := fun j =>
  tile m c ⟨(j 0).val, lt_of_lt_of_eq (j 0).isLt N_0.symm⟩
    (ix3 (0 : Fin 1) (⟨(j 1).val, (j 1).isLt⟩ : Fin 1) (⟨(j 2).val, (j 2).isLt⟩ : Fin 2))

/-- WHAT POINT `t` WRITES BACK is block `t` of that array. -/
theorem flushed_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  obtain ⟨e0, e1, e2, -⟩ := idx_facts t
  funext y
  show tile m c t y = G4 m c (((cfg0.win 4).blk t).view.emb y)
  unfold G4
  have hy0 : (y 0).val = 0 := by have : (y 0).val < 1 := (y 0).isLt; omega
  have hy1 : (y 1).val = 0 := by have : (y 1).val < 1 := (y 1).isLt; omega
  have h0 : ((((cfg0.win 4).blk t).view.emb y) 0).val = t.val := by
    show win0_4.index t (0 : Fin 3) * 1 + 1 * (y 0).val = t.val; omega
  have h1 : ((((cfg0.win 4).blk t).view.emb y) 1).val = (y 1).val := by
    show win0_4.index t (1 : Fin 3) * 1 + 1 * (y 1).val = (y 1).val; omega
  have h2 : ((((cfg0.win 4).blk t).view.emb y) 2).val = (y 2).val := by
    show win0_4.index t (2 : Fin 3) * 2 + 1 * (y 2).val = (y 2).val; omega
  have ht : (⟨((((cfg0.win 4).blk t).view.emb y) 0).val, lt_of_lt_of_eq ((((cfg0.win 4).blk t).view.emb y) 0).isLt N_0.symm⟩ : Fin cfg0.N) = t :=
    Fin.ext h0
  rw [ht]
  refine congrArg (tile m c t) ?_
  funext a
  refine Fin.ext ?_
  match a with
  | ⟨0, _⟩ => exact hy0
  | ⟨1, _⟩ => exact h1.symm
  | ⟨2, _⟩ => exact h2.symm

/-- An index of the result array is in point `t`'s block iff each coordinate is in the block's range on its axis. -/
theorem mem_blk4 (t : Fin cfg0.N) (i : S32x1x2.Idx) :
    i ∈ ((cfg0.win 4).blk t).view.set ↔ ∀ a : Fin 3, win0_4.index t a * S1x1x2.size a ≤ (i a).val
      ∧ (i a).val < win0_4.index t a * S1x1x2.size a + S1x1x2.size a := by
  show i ∈ ((View.whole main_v14).slice (win0_4.rect t)).set ↔ _
  rw [View.set_slice_whole, Rect.mem_set_unit]
  exact Iff.rfl

/-- Every pair of the result array is some point's: pair `i` is point `i`'s. -/
theorem cover4 (i : S32x1x2.Idx) : ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 2 := (i 2).isLt
  refine ⟨⟨(i 0).val, lt_of_lt_of_eq (i 0).isLt N_0.symm⟩, flush0_4 _, ?_⟩
  obtain ⟨e0, e1, e2, -⟩ := idx_facts ⟨(i 0).val, lt_of_lt_of_eq (i 0).isLt N_0.symm⟩
  rw [mem_blk4]
  intro a
  match a with
  | ⟨0, _⟩ =>
    show win0_4.index _ (0 : Fin 3) * 1 ≤ (i 0).val ∧ (i 0).val < win0_4.index _ (0 : Fin 3) * 1 + 1
    rw [e0]; show (i 0).val * 1 ≤ (i 0).val ∧ (i 0).val < (i 0).val * 1 + 1; omega
  | ⟨1, _⟩ =>
    show win0_4.index _ (1 : Fin 3) * 1 ≤ (i 1).val ∧ (i 1).val < win0_4.index _ (1 : Fin 3) * 1 + 1
    rw [e1]; omega
  | ⟨2, _⟩ =>
    show win0_4.index _ (2 : Fin 3) * 2 ≤ (i 2).val ∧ (i 2).val < win0_4.index _ (2 : Fin 3) * 2 + 2
    rw [e2]; omega

/-- THE RESULT ARRAY after the run is the array of the tiles' pairs. -/
theorem final4 (c : Dev nD) : (dats m 0 c).arrAt 4 cfg0.N = G4 m c :=
  (dats m 0 c).arrAt_eq_of_cover 4 (G4 m c) (fun t _ => flushed_eq m c t) cover4

/-! ## The blocks a tile loads -/

/-- The three argument arrays as launched, and the gathered array the region finds, at their literal types. -/
abbrev argT (c : Dev nD) : S32768x768.Idx → EReal := m ((c : Thread nD τ).loc main_arg0)
@[inherit_doc argT] abbrev argP (c : Dev nD) : S2048x768.Idx → EReal := m ((c : Thread nD τ).loc main_arg1)
@[inherit_doc argT] abbrev argL (c : Dev nD) : S32768.Idx → BitVec 32 := m ((c : Thread nD τ).loc main_arg2)
@[inherit_doc argT] def gath (c : Dev nD) : S32768x768.Idx → EReal := V m c main_v13

/-- The sample array arrives as launched; the gathered array is the host lines' gather of the shifted prototypes by the
    wrapped labels. -/
def labelCol (c : Dev nD) : S32768x1.Idx → BitVec 32 :=
  broadcastInDim S32768x1 ![0] bcast_S32768_S32768x1_0
    (select (cmpi .slt (argL m c) (broadcastInDim S32768 ![] bcast_S_S32768 (constantI S_ 32 0#32)))
      (addi (argL m c) (broadcastInDim S32768 ![] bcast_S_S32768 (constantI S_ 32 2048#32)))
      (argL m c))

/-- Row `n` of the index column the gather reads is sample `n`'s label, wrapped. -/
theorem labelCol_apply (c : Dev nD) (n : Fin 32768) : labelCol m c (ix2 n (0 : Fin 1)) = Cert.Spec.wrap (argL m c (ix1 n)) := by
  unfold labelCol
  rw [broadcastInDim_apply ![0] bcast_S32768_S32768x1_0 _ (ix2 n (0 : Fin 1)) (ix1 n) (fun a => match a with
    | ⟨0, _⟩ => by show n.val = if (32768 : Nat) = 1 then 0 else n.val; rw [if_neg (by decide)])]
  rw [select_apply]
  show Scalar.select (IntOp.cmpi .slt (argL m c (ix1 n)) (broadcastInDim S32768 ![] bcast_S_S32768 (constantI S_ 32 0#32) (ix1 n)))
    (IntOp.addi (argL m c (ix1 n)) (broadcastInDim S32768 ![] bcast_S_S32768 (constantI S_ 32 2048#32) (ix1 n)))
    (argL m c (ix1 n)) = _
  rw [broadcastInDim_scalar_apply, broadcastInDim_scalar_apply]
  rfl

theorem V_gathered (c : Dev nD) :
    gath m c
      = Host.gather gather_S2048x768_S32768x1_S32768x768_1_0_n_n_0_1_1768
          (subf (F := Ideal) (argP m c)
            (broadcastInDim S2048x768 ![] bcast_S_S2048x768 (constant (F := Ideal) S_ .f32 0x358637BD#32)))
          (labelCol m c) := by
  unfold labelCol gath
  dsimp only [V, V0]
  simp only [hostOps0, List.flatten_cons, List.flatten_nil, List.append_nil]
  after_results

/-- Entry (n, d) of the gathered array: the prototype row sample `n`'s label picks, the shift taken off. -/
theorem gathered_apply (c : Dev nD) (n : Fin 32768) (d : Fin 768) :
    gath m c (ix2 n d) = argP m c (ix2 (Cert.Spec.rowOf (argL m c) n) d) - Cert.Spec.eps := by
  rw [V_gathered]
  refine (GatherRead.gather_rows_apply (by decide) _ rfl rfl rfl rfl rfl rfl rfl _ _ n d).trans ?_
  rw [subf_apply, broadcastInDim_scalar_apply]
  refine congrArg (fun r => argP m c (ix2 r d) - Cert.Spec.eps) (Fin.ext ?_)
  show min (labelCol m c (ix2 n (0 : Fin 1))).toInt.toNat (2048 - 1) = min (Cert.Spec.wrap (argL m c (ix1 n))).toInt.toNat 2047
  rw [labelCol_apply]

/-- Row `r` of tile `t`'s sample block is sample `1024 t + r`. -/
theorem tblk_apply (c : Dev nD) (t : Fin cfg0.N) (r : Fin 1024) (d : Fin 768) (h : 1024 * t.val + r.val < 32768) :
    tblk m c t (ix2 r d) = argT m c (ix2 ⟨1024 * t.val + r.val, h⟩ d) := by
  obtain ⟨-, -, -, e3, e4, -, -⟩ := idx_facts t
  show V m c main_arg0 (((cfg0.win 0).blk t).view.emb (ix2 r d)) = _
  rw [V_main_arg0]
  refine congrArg (m ((c : Thread nD τ).loc main_arg0)) ?_
  funext a
  refine Fin.ext ?_
  match a with
  | ⟨0, _⟩ => show win0_0.index t (0 : Fin 2) * 1024 + 1 * r.val = 1024 * t.val + r.val; omega
  | ⟨1, _⟩ => show win0_0.index t (1 : Fin 2) * 768 + 1 * d.val = d.val; omega

/-- Row `r` of tile `t`'s gathered block is the gathered row of sample `1024 t + r`. -/
theorem pblk_apply (c : Dev nD) (t : Fin cfg0.N) (r : Fin 1024) (d : Fin 768) (h : 1024 * t.val + r.val < 32768) :
    pblk m c t (ix2 r d) = gath m c (ix2 ⟨1024 * t.val + r.val, h⟩ d) := by
  obtain ⟨-, -, -, -, -, e5, e6⟩ := idx_facts t
  unfold gath
  show V m c main_v13 (((cfg0.win 1).blk t).view.emb (ix2 r d)) = _
  refine congrArg (V m c main_v13) ?_
  funext a
  refine Fin.ext ?_
  match a with
  | ⟨0, _⟩ => show win0_1.index t (0 : Fin 2) * 1024 + 1 * r.val = 1024 * t.val + r.val; omega
  | ⟨1, _⟩ => show win0_1.index t (1 : Fin 2) * 768 + 1 * d.val = d.val; omega

/-! ## The two entries of a tile's pair -/

section Finite

variable (hT : ∀ (c : Dev nD) (i : S32768x768.Idx), ∃ r : ℝ, argT m c i = (r : EReal))
variable (hP : ∀ (c : Dev nD) (i : S2048x768.Idx), ∃ r : ℝ, argP m c i = (r : EReal))
include hT hP

/-- THE FIRST ENTRY of tile `t`'s pair: for finite inputs, the sum over the tile's rows of the samples' distances. -/
theorem tile_pos (c : Dev nD) (t : Fin cfg0.N) :
    tile m c t (ix3 0 0 0) = ∑ r : Fin 1024, Cert.Spec.posDist (argT m c) (argP m c) (argL m c)
      ⟨1024 * t.val + r.val, by have : t.val < 32 := lt_of_lt_of_eq t.isLt N_0; have := r.isLt; omega⟩ := by
  rw [tile_eq, Cert.KernelIdeal.Pay.pay1_at0]
  refine Finset.sum_congr rfl fun r _ => ?_
  have h : 1024 * t.val + r.val < 32768 := by have : t.val < 32 := lt_of_lt_of_eq t.isLt N_0; have := r.isLt; omega
  rw [Cert.KernelIdeal.Pay.pay3_apply]
  have hrow : ∀ d : Fin 768, tblk m c t (ix2 r d) - pblk m c t (ix2 r d)
      = argT m c (ix2 ⟨1024 * t.val + r.val, h⟩ d)
        - (argP m c (ix2 (Cert.Spec.rowOf (argL m c) ⟨1024 * t.val + r.val, h⟩) d) - Cert.Spec.eps) := fun d => by
    rw [tblk_apply m c t r d h, pblk_apply m c t r d h, gathered_apply]
  simp only [hrow]
  unfold Cert.Spec.posDist Cert.Spec.diff Cert.Spec.eps
  exact Cert.Arith.row_eq _ _ _ (fun d => hT c _) (fun d => hP c _) Cert.Arith.eps_real

omit hT hP in
/-- THE SECOND ENTRY of tile `t`'s pair is not negative. -/
theorem tile_min_nonneg (c : Dev nD) (t : Fin cfg0.N) : 0 ≤ tile m c t (ix3 0 0 1) := by
  rw [tile_eq, Cert.KernelIdeal.Pay.pay1_at1]
  exact Finset.sum_nonneg fun r _ => Cert.KernelIdeal.Pay.pay4_nonneg _ _ _ _ r

/-- THE KERNEL'S VALUE: the host lines after the region, applied to the result array, give the loss. -/
theorem kernel_value (c : Dev nD) :
    Cert.KernelIdeal.Tail.tailFn ((dats m 0 c).arrAt 4 cfg0.N) = fun _ => Cert.Spec.loss (argT m c) (argP m c) (argL m c) := by
  rw [final4]
  rw [Cert.KernelIdeal.Tail.tail_value (G4 m c) (Finset.sum_nonneg fun k _ => tile_min_nonneg m c _)]
  funext _
  unfold Cert.Spec.loss
  refine congrArg (fun s => Ideal.div s Cert.Spec.count) ?_
  rw [Cert.Arith.sum_tiles]
  refine Finset.sum_congr rfl fun k _ => ?_
  exact tile_pos m hT hP c ⟨k.val, lt_of_lt_of_eq k.isLt N_0.symm⟩

end Finite

end Cert.KernelIdeal.Val

end
-- ==== Proof.KernelRun.lean ====
/-
  The idealized kernel's run, read: every weakly fair execution ends with the loss in the result buffer and the three
  arguments as launched.
-/
import proofs.«422994_j76476187673023_3_alg».proof.Proof.KernelValue

set_option maxRecDepth 16384

noncomputable section

namespace Cert.KernelIdeal.Val

open Cert.KernelIdeal Cert.KernelIdeal.Gen Cert.KernelIdeal.GenP Idealize.ShloMosaic Idealize.ShloMosaic.ValueIdx
open Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- The result buffer after the host lines that follow the region: those lines applied to the result array. -/
theorem tail_eq (c : Dev nD) :
    (Pipeline.afterTail₀ cfgs (dats m) 0 (V0 m) [hostOps1] c main_v26 : S_.Idx → EReal)
      = Cert.KernelIdeal.Tail.tailFn ((dats m 0 c).arrAt 4 cfg0.N) := by
  unfold Pipeline.afterTail₀
  show StableHlo.after hostOps1 _ (Proc.devRef .tc main_v26) = _
  after_results
  rw [Pipeline.withArrays_arr spec0 launch0.win.arr_inj c _ _ 4]
  rfl

/-- THE RUN: for finite float inputs the result buffer ends at the loss, the arguments unchanged. -/
theorem run_value
    (hT : ∀ (c : Dev nD) (i : S32768x768.Idx), ∃ r : ℝ, (m ((c : Thread nD τ).loc main_arg0) : S32768x768.Idx → EReal) i = (r : EReal))
    (hP : ∀ (c : Dev nD) (i : S2048x768.Idx), ∃ r : ℝ, (m ((c : Thread nD τ).loc main_arg1) : S2048x768.Idx → EReal) i = (r : EReal)) :
    θ_run defs (onTc (τ := τ) (main (F := Ideal))) ⟨m, fun _ => 0, ρ⟩ (fun r => ∀ c : Dev nD,
      r.2.mem ((c.tc : Thread nD τ).loc main_v26) = (fun _ => Cert.Spec.loss (m ((c.tc : Thread nD τ).loc main_arg0))
        (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).2 main_v26 (Pipeline.mem_restRefs_of main_v26 (by decide) (by decide))).trans (tail_eq m c)).trans
        (kernel_value m hT hP c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val

end
-- ==== Proof.lean ====
/- The certificate: a nearest-prototype loss computed tile by tile on the chip against its plain formulation.

   Both programs take 32768 sample rows, 2048 prototype rows and one label per sample. The value is the mean over
   the samples of the distance between a sample and the prototype its label picks, the difference shifted by a small
   constant. Both programs add to it one over a second sum: the reference sums, over samples and prototypes, +∞ where
   the prototype is the sample's label and the sample's smallest distance elsewhere; with every label in range one
   entry is +∞ and none is negative, so the sum is +∞ and its reciprocal zero. The kernel adds +∞ to a non-negative
   multiple of a sum of roots: again +∞. What is left on both sides is the sum of the distances over the count: the
   kernel takes the shift off the prototype before subtracting and sums tile by tile, the reference adds the shift to
   the difference and sums at once — one real number for finite inputs.

   The frames are the generated frame certificates (the two kernel programs) and the reference's run with its result
   dropped; nothing was rewritten by the idealization, so the preservation claim is trivial. -/
import proofs.«422994_j76476187673023_3_alg».proof.Defs
import proofs.«422994_j76476187673023_3_alg».proof.Proof.Gen.Kernel
import proofs.«422994_j76476187673023_3_alg».proof.Proof.Gen.Kernel.Skeleton
import proofs.«422994_j76476187673023_3_alg».proof.Proof.Gen.Kernel.Launch
import proofs.«422994_j76476187673023_3_alg».proof.Proof.Gen.Kernel.Points
import proofs.«422994_j76476187673023_3_alg».proof.Proof.KernelFrame
import proofs.«422994_j76476187673023_3_alg».proof.Proof.Gen.KernelIdeal
import proofs.«422994_j76476187673023_3_alg».proof.Proof.Gen.KernelIdeal.Skeleton
import proofs.«422994_j76476187673023_3_alg».proof.Proof.Gen.KernelIdeal.Launch
import proofs.«422994_j76476187673023_3_alg».proof.Proof.Gen.KernelIdeal.Points
import proofs.«422994_j76476187673023_3_alg».proof.Proof.KernelIdealFrame
import proofs.«422994_j76476187673023_3_alg».proof.Proof.Gen.ReferenceIdeal
import proofs.«422994_j76476187673023_3_alg».proof.Proof.ReferenceRun
import proofs.«422994_j76476187673023_3_alg».proof.Proof.ReferenceRead
import proofs.«422994_j76476187673023_3_alg».proof.Proof.Gen.Pre_finite_inputs
import proofs.«422994_j76476187673023_3_alg».proof.Proof.PreDecode
import proofs.«422994_j76476187673023_3_alg».proof.Proof.RefValue
import proofs.«422994_j76476187673023_3_alg».proof.Proof.KernelRun
import Idealize.ShloMosaic.Adequacy
import Idealize.ShloMosaic.Init

set_option maxRecDepth 16384

noncomputable section

namespace Cert.Proof

open Idealize.ShloMosaic Idealize.SL.Sem Idealize.ShloMosaic.ValueIdx

/-- The reference's result under the precondition: the loss of its own arguments. -/
theorem reference_value (x0 : (⟨Cert.ReferenceIdeal.S32768x768, .f32⟩ : BufTy).Contents (Elt Ideal))
    (x1 : (⟨Cert.ReferenceIdeal.S2048x768, .f32⟩ : BufTy).Contents (Elt Ideal))
    (x2 : (⟨Cert.ReferenceIdeal.S32768, .i32⟩ : BufTy).Contents (Elt Ideal))
    (h : Cert.Pre_finite_inputs.fn (F := Ideal) x0 x1 x2 = fun _ => 1#1) :
    Cert.ReferenceIdeal.ReadP.val_main_v45 (F := Ideal) x0 x1 x2 = fun _ => Cert.Spec.loss x0 x1 x2 :=
  Cert.RefValue.ref_value x0 x1 x2 fun n =>
    Cert.PreDecode.label_range x0 x1 x2 h (ix1 n)

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.ValueP.run (F := Ideal) m ρ),
  trivial,
  fun m ρ m' ρ' hpre hagree =>
    ⟨fun c => fun _ => Cert.Spec.loss (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.KernelIdeal.Val.run_value m ρ
        (fun c i => Cert.PreDecode.finite_arg0 _ _ _ (hpre c) i)
        (fun c i => Cert.PreDecode.finite_arg1 _ _ _ (hpre c) i),
      (θ_run Cert.ReferenceIdeal.defs _ _).mono (fun _ h c =>
        ⟨by
          rw [(h c).1, Cert.ReferenceIdeal.ReadP.val_main_v45_eq, (hagree c).1, (hagree c).2.1, (hagree c).2.2]
          exact reference_value _ _ _ (hpre c),
         (h c).2⟩) (Cert.ReferenceIdeal.ValueP.run (F := Ideal) m' ρ')⟩⟩

end Cert.Proof

end
